-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S50257x1024 : Shape := ⟨2, ![50257, 1024]⟩
abbrev S50257x1 : Shape := ⟨2, ![50257, 1]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S50257x1 : S_.BroadcastsInDim S50257x1 (![] : Fin 0 → Fin S50257x1.rank)
  reducesTo_S50257x1_S_d0_1 : S50257x1.ReducesTo [0, 1] S_
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : IVec S4x2048 32) (main_arg1 : FVec F S50257x1024 .f32) (main_arg2 : FVec F S50257x1 .f32) : IVec S_ 1 :=
  let main_v0 : FVec F S50257x1024 .f32 := Host.absf main_arg1
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_v4 : FVec F S50257x1 .f32 := Host.absf main_arg2
  let main_cst_0 : FVec F S_ .f32 := constant S_ .f32 0x7F800000#32
  let main_v5 : FVec F S50257x1 .f32 := broadcastInDim S50257x1 ![] bcast_S_S50257x1 main_cst_0
  let main_v6 : IVec S50257x1 1 := cmpf .olt main_v4 main_v5
  let main_c_1 : IVec S_ 1 := constantI S_ 1 1#1
  let main_v7 : IVec S_ 1 := (fun x v => Host.reduce IntOp.andi x v reducesTo_S50257x1_S_d0_1 h_S_) main_v6 main_c_1
  let main_v8 : IVec S_ 1 := andi main_v3 main_v7
  let main_c_2 : IVec S_ 32 := constantI S_ 32 0#32
  let main_v9 : IVec S4x2048 32 := broadcastInDim S4x2048 ![] bcast_S_S4x2048 main_c_2
  let main_v10 : IVec S4x2048 1 := cmpi .sge main_arg0 main_v9
  let main_c_3 : IVec S_ 1 := constantI S_ 1 1#1
  let main_v11 : IVec S_ 1 := (fun x v => Host.reduce IntOp.andi x v reducesTo_S4x2048_S_d0_1 h_S_) main_v10 main_c_3
  let main_v12 : IVec S_ 1 := andi main_v8 main_v11
  main_v12
-- ==== Kernel.lean ====
abbrev S4x2048 : Shape := ⟨2, ![4, 2048]⟩
abbrev S50257x1024 : Shape := ⟨2, ![50257, 1024]⟩
abbrev S50257x1 : Shape := ⟨2, ![50257, 1]⟩
abbrev S8192 : Shape := ⟨1, ![8192]⟩
abbrev S_ : Shape := ⟨0, ![]⟩
abbrev S50257x8x128 : Shape := ⟨3, ![50257, 8, 128]⟩
abbrev S50257x1x1 : Shape := ⟨3, ![50257, 1, 1]⟩
abbrev S8192x8x128 : Shape := ⟨3, ![8192, 8, 128]⟩
abbrev S1x8x128 : Shape := ⟨3, ![1, 8, 128]⟩
abbrev S1 : Shape := ⟨1, ![1]⟩
abbrev S1x1x1 : Shape := ⟨3, ![1, 1, 1]⟩
abbrev S8192x1024 : Shape := ⟨2, ![8192, 1024]⟩
abbrev S4x2048x1024 : Shape := ⟨3, ![4, 2048, 1024]⟩

abbrev nBuf : Space → Nat
  | .hbm => 16
  | .vmem => 6
  | .smem => 1
  | _ => 0

abbrev bufTy : (tb : Table) → Fin (tcTables nBuf tb) → BufTy
  | .hbm, ⟨0, _⟩ => ⟨S4x2048, .i32⟩
  | .hbm, ⟨1, _⟩ => ⟨S50257x1024, .f32⟩
  | .hbm, ⟨2, _⟩ => ⟨S50257x1, .f32⟩
  | .hbm, ⟨3, _⟩ => ⟨S8192, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S50257x8x128, .f32⟩
  | .hbm, ⟨12, _⟩ => ⟨S50257x1x1, .f32⟩
  | .hbm, ⟨13, _⟩ => ⟨S8192x8x128, .f32⟩
  | .hbm, ⟨14, _⟩ => ⟨S8192x1024, .f32⟩
  | .hbm, ⟨15, _⟩ => ⟨S4x2048x1024, .f32⟩
  | .local _ .vmem, ⟨0, _⟩ => ⟨S1x8x128, .f32⟩
  | .local _ .vmem, ⟨1, _⟩ => ⟨S1x8x128, .f32⟩
  | .local _ .vmem, ⟨2, _⟩ => ⟨S1x1x1, .f32⟩
  | .local _ .vmem, ⟨3, _⟩ => ⟨S1x1x1, .f32⟩
  | .local _ .vmem, ⟨4, _⟩ => ⟨S1x8x128, .f32⟩
  | .local _ .vmem, ⟨5, _⟩ => ⟨S1x8x128, .f32⟩
  | .local _ .smem, ⟨0, _⟩ => ⟨S8192, .i32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8192], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S8192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S8192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S8192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x2048_S8192 : S4x2048.ShapeCasts S8192
  bcast_S_S8192 : S_.BroadcastsInDim S8192 (![] : Fin 0 → Fin S8192.rank)
  shapeCasts_S50257x1024_S50257x8x128 : S50257x1024.ShapeCasts S50257x8x128
  shapeCasts_S50257x1_S50257x1x1 : S50257x1.ShapeCasts S50257x1x1
  numel1_S1 : S1.numel = 1
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  broadcasts_S1x1x1_S1x8x128 : S1x1x1.Broadcasts S1x8x128
  shapeCasts_S8192x8x128_S8192x1024 : S8192x8x128.ShapeCasts S8192x1024
  shapeCasts_S8192x1024_S4x2048x1024 : S8192x1024.ShapeCasts S4x2048x1024
  hrank0 : 0 < grid0.rank
  k0_off1_inb : ∀ i : grid0.Coords, ∀ a, (k0_off1 i) a + S1.size a ≤ S8192.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8192x8x128.size a
  hwx0_2 : ∀ i : grid0.Coords, EltTy.bits .f32 = 32 ∨ (Rect.block (s := S8192x8x128) S1x8x128.size (cc0_transform_2 i) (hinb0_2 i)).WholeWords (EltTy.packing .f32)

variable [Facts₀]

abbrev spec0_0 : Pipeline.WinSpec sig grid0.rank :=
  Pipeline.WinSpec.ofSpec (Memref.whole main_v2) S1x8x128.size reads0_0 false false 2 stage0_0 sem0_0 nbuf0_0 hstage0_0

abbrev spec0_1 : Pipeline.WinSpec sig grid0.rank :=
  Pipeline.WinSpec.ofSpec (Memref.whole main_v3) S1x1x1.size reads0_1 false false 2 stage0_1 sem0_1 nbuf0_1 hstage0_1

abbrev spec0_2 : Pipeline.WinSpec sig grid0.rank :=
  Pipeline.WinSpec.ofSpec (Memref.whole main_v4) S1x8x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x8x128.size a ≤ S50257x8x128.size a), EltTy.bits .f32 = 32 ∨ (Rect.block (s := S50257x8x128) S1x8x128.size (cc0_transform_0 k0_off1_inb numel1_S1 pf i) h).WholeWords (EltTy.packing .f32)) ∧
  (∀ i : grid0.Coords, ∃ h : (∀ a, (cc0_transform_1 k0_off1_inb numel1_S1 pf i a + 1) * S1x1x1.size a ≤ S50257x1x1.size a), EltTy.bits .f32 = 32 ∨ (Rect.block (s := S50257x1x1) S1x1x1.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S4x2048 : Shape := ⟨2, ![4, 2048]⟩
abbrev S50257x1024 : Shape := ⟨2, ![50257, 1024]⟩
abbrev S50257x1 : Shape := ⟨2, ![50257, 1]⟩
abbrev S_ : Shape := ⟨0, ![]⟩
abbrev S4x2048x1 : Shape := ⟨3, ![4, 2048, 1]⟩
abbrev S4x2048x1024 : Shape := ⟨3, ![4, 2048, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S50257x1024, .f32⟩
  | .hbm, ⟨2, _⟩ => ⟨S50257x1, .f32⟩
  | .hbm, ⟨3, _⟩ => ⟨S_, .i32⟩
  | .hbm, ⟨4, _⟩ => ⟨S4x2048, .i32⟩
  | .hbm, ⟨5, _⟩ => ⟨S4x2048, .i1⟩
  | .hbm, ⟨6, _⟩ => ⟨S_, .i32⟩
  | .hbm, ⟨7, _⟩ => ⟨S4x2048, .i32⟩
  | .hbm, ⟨8, _⟩ => ⟨S4x2048, .i32⟩
  | .hbm, ⟨9, _⟩ => ⟨S4x2048, .i32⟩
  | .hbm, ⟨10, _⟩ => ⟨S4x2048x1, .i32⟩
  | .hbm, ⟨11, _⟩ => ⟨S4x2048x1024, .f32⟩
  | .hbm, ⟨12, _⟩ => ⟨S_, .i32⟩
  | .hbm, ⟨13, _⟩ => ⟨S4x2048, .i32⟩
  | .hbm, ⟨14, _⟩ => ⟨S4x2048, .i1⟩
  | .hbm, ⟨15, _⟩ => ⟨S_, .i32⟩
  | .hbm, ⟨16, _⟩ => ⟨S4x2048, .i32⟩
  | .hbm, ⟨17, _⟩ => ⟨S4x2048, .i32⟩
  | .hbm, ⟨18, _⟩ => ⟨S4x2048, .i32⟩
  | .hbm, ⟨19, _⟩ => ⟨S4x2048x1, .i32⟩
  | .hbm, ⟨20, _⟩ => ⟨S4x2048x1, .f32⟩
  | .hbm, ⟨21, _⟩ => ⟨S4x2048x1024, .f32⟩
  | .hbm, ⟨22, _⟩ => ⟨S4x2048x1024, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x1024_0_1_2 : S4x2048x1.BroadcastsInDim S4x2048x1024 (![0, 1, 2] : Fin 3 → Fin S4x2048x1024.rank)
  gather_S50257x1024_S4x2048x1_S4x2048x1024_2_0_n_n_0_2_11024_wf : GatherDims.WF S50257x1024 S4x2048x1 S4x2048x1024 [2] [0] [] [0] [] 2 ![1, 1024]
  gather_S50257x1_S4x2048x1_S4x2048x1_2_0_n_n_0_2_11_wf : GatherDims.WF S50257x1 S4x2048x1 S4x2048x1 [2] [0] [] [0] [] 2 ![1, 1]

variable [Facts₀]

def gather_S50257x1024_S4x2048x1_S4x2048x1024_2_0_n_n_0_2_11024 : GatherDims S50257x1024 S4x2048x1 S4x2048x1024 where
  offsetDims := [2]
  collapsedSliceDims := [0]
  operandBatchingDims := []
  startIndicesBatchingDims := []
  startIndexMap := [0]
  indexVectorDim := 2
  sliceSizes := ![1, 1024]
  wf := gather_S50257x1024_S4x2048x1_S4x2048x1024_2_0_n_n_0_2_11024_wf
def gather_S50257x1_S4x2048x1_S4x2048x1_2_0_n_n_0_2_11 : GatherDims S50257x1 S4x2048x1 S4x2048x1 where
  offsetDims := [2]
  collapsedSliceDims := [0]
  operandBatchingDims := []
  startIndicesBatchingDims := []
  startIndexMap := [0]
  indexVectorDim := 2
  sliceSizes := ![1, 1]
  wf := gather_S50257x1_S4x2048x1_S4x2048x1_2_0_n_n_0_2_11_wf

class Facts : Prop extends Facts₀ where

variable [Facts]
-- ==== Proof.LibClampWord.lean ====
/-
  Two facts about 32-bit index words.

  `jnp.clip(w, 0, hi)` — `minimum hi (maximum 0 w)`, both signed — of ANY word `w` is the word whose value is
  `w` read signed, a negative `w` as `0`, and cut off at `hi`: the same number a gather's clamp of the start
  index `w` into `[0, hi]` reads. And jnp's wrap of a negative index, `select (w < 0) (w + n) w`, leaves a
  non-negative word alone.
-/
import Idealize.ShloMosaic.Lib.Affine
import Idealize.ShloMosaic.Lib.ValueIdx
import Idealize.ShloMosaic.Lib.StableHlo.Predicate

namespace Idealize.ShloMosaic.ClampWord

open Idealize.ShloMosaic Idealize.ShloMosaic.StableHlo.Predicate

/-- The signed clamp of a word into `[0, hi]`, read as a natural number, is the word read signed (negative: `0`)
    cut off at `hi`. No condition on the word. -/
theorem clip_toNat (w hi : BitVec 32) (hhi : hi.toNat < 2 ^ 31) :
    (IntOp.minsi hi (IntOp.maxsi (0#32) w)).toNat = min w.toInt.toNat hi.toNat := by
  have hth : hi.toInt = hi.toNat := toInt_eq_toNat_of_lt hhi
  have h0 : (0#32 : BitVec 32).toInt = 0 := by decide
  have hw := BitVec.toInt_eq_toNat_cond w
  have hwlt : w.toNat < 2 ^ 32 := w.isLt
  unfold IntOp.minsi IntOp.maxsi
  by_cases hneg : w.slt 0#32 = true
  · -- a negative word: the maximum with zero is zero, and zero is not above `hi`
    rw [if_pos hneg]
    have hneg' : w.toInt < 0 := by rw [BitVec.slt_iff_toInt_lt, h0] at hneg; exact hneg
    have hnot : ¬ (hi.slt 0#32 = true) := by rw [BitVec.slt_iff_toInt_lt, h0, hth]; omega
    rw [if_neg hnot]
    have : (0#32 : BitVec 32).toNat = 0 := by decide
    omega
  · -- a non-negative word reads the same signed and unsigned; the minimum with `hi` is decided on those values
    rw [if_neg hneg]
    have hnn : 0 ≤ w.toInt := by rw [BitVec.slt_iff_toInt_lt, h0] at hneg; omega
    have hwi : w.toInt = w.toNat := by split_ifs at hw <;> omega
    by_cases hc : hi.slt w = true
    · rw [if_pos hc]
      have : hi.toInt < w.toInt := by rw [BitVec.slt_iff_toInt_lt] at hc; exact hc
      omega
    · rw [if_neg hc]
      have : ¬ hi.toInt < w.toInt := by rw [BitVec.slt_iff_toInt_lt] at hc; exact hc
      omega

/-- jnp's wrap of a negative index leaves a word that is not negative as it is. -/
theorem wrap_of_nonneg (w n : BitVec 32) (h : IntOp.cmpi .sge w 0#32 = 1#1) :
    Scalar.select (IntOp.cmpi .slt w 0#32) (IntOp.addi w n) w = w := by
  have h1 := IntOp.cmpi_sge.mp h
  have hlt : ¬ IntOp.cmpi .slt w 0#32 = 1#1 := fun e => by have := IntOp.cmpi_slt.mp e; omega
  rw [ValueIdx.eq_zero_of_ne_one hlt]
  exact ValueIdx.select_zero _ _

end Idealize.ShloMosaic.ClampWord
-- ==== Proof.TableBits.lean ====
/-
  The prefetched table and the pipeline's side condition on it.

  The table the pallas_call prefetches is computed by the host lines before it: the [4, 2048] index words flattened to
  [8192] and clipped, `minimum 50256 (maximum 0 w)`, both signed. So entry t is the clip of word (t / 2048, t % 2048),
  and as a natural number every entry is at most 50256 WHATEVER the words are. The weight and the mask windows read block
  (entry, 0, 0) of arrays with 50257 leading blocks: every such block lies inside its array, which is the side condition
  the frame is stated under. No precondition is used.
-/
import proofs.«405861_j31190052504336_2_alg».proof.Proof.Gen.Kernel.Frame
import proofs.«405861_j31190052504336_2_alg».proof.Proof.LibClampWord
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.Kernel.Tbl

open Cert.Kernel Cert.Kernel.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The index words as the launch memory holds them (the program runs on one device). -/
abbrev words : IVec S4x2048 32 := m (((0 : Dev nD) : Thread nD τ).loc main_arg0)

/-- The table is the host lines' term: the flattened words, clipped below by 0 and above by 50256. -/
theorem tbl_eq : (tbl m 0 : IVec S8192 32) = minsi (broadcastInDim S8192 ![] Facts₀.bcast_S_S8192 (constantI S_ 32 50256#32))
      (maxsi (broadcastInDim S8192 ![] Facts₀.bcast_S_S8192 (constantI S_ 32 0#32)) (shapeCast S8192 (words m) Facts₀.shapeCasts_S4x2048_S8192)) := by
  unfold tbl
  show V m 0 main_v1 = _
  dsimp only [V, V0]
  simp only [hostOps0, hostOps0_1, hostOps0_2, List.flatten_cons, List.flatten_nil, List.append_nil, List.cons_append, List.nil_append]
  after_results
  rfl

/-- Entry `t` of the table is the clip of the word of token `(t / 2048, t % 2048)`: the flattening is row-major. -/
theorem tbl_apply (t : Fin 8192) : (tbl m 0 : IVec S8192 32) (ix1 t)
    = IntOp.minsi 50256#32 (IntOp.maxsi 0#32 (words m (ix2 ⟨t.val / 2048, by omega⟩ ⟨t.val % 2048, Nat.mod_lt _ (by decide)⟩))) := by
  rw [tbl_eq]
  show IntOp.minsi _ (IntOp.maxsi _ (shapeCast S8192 (words m) Facts₀.shapeCasts_S4x2048_S8192 (ix1 t))) = _
  rw [shapeCast_apply (words m) Facts₀.shapeCasts_S4x2048_S8192 (ix1 t) (ix2 ⟨t.val / 2048, by omega⟩ ⟨t.val % 2048, Nat.mod_lt _ (by decide)⟩) (by
    rw [Shape.rowMajor_val_two, Shape.rowMajor_val_one]
    show t.val / 2048 * 2048 + t.val % 2048 = t.val
    omega)]
  rfl

/-- Every entry, read as a natural number, is at most 50256: the clip's upper end, for any word. -/
theorem tbl_le' (t : Fin 8192) : ((tbl m 0 : IVec S8192 32) (ix1 t)).toNat ≤ 50256 := by
  rw [tbl_apply, ClampWord.clip_toNat _ _ (by decide)]
  exact Nat.min_le_right _ _

/-- The same at any index of the [8192] table. -/
theorem tbl_le (x : S8192.Idx) : ((tbl m 0 : IVec S8192 32) x).toNat ≤ 50256 := by
  obtain ⟨t, rfl⟩ : ∃ t : Fin 8192, x = ix1 t := ⟨x 0, eq_ix1 x⟩
  exact tbl_le' m t

/-- THE SIDE CONDITION: at every grid point the weight block `(entry, 0, 0)` of shape [1, 8, 128] lies inside the
    [50257, 8, 128] array and the mask block `(entry, 0, 0)` of shape [1, 1, 1] inside the [50257, 1, 1] array, since
    `entry + 1 ≤ 50257`; f32 transfers are word-exact. -/
theorem ok : Ok m := by
  refine ⟨fun i => ?_, fun i => ?_⟩
  · obtain ⟨w, hw, e⟩ : ∃ w : BitVec 32, w.toNat ≤ 50256 ∧ cc0_transform_0 Facts₀.k0_off1_inb Facts₀.numel1_S1 (tbl m) i = ![w.toNat, 0, 0] :=
      ⟨_, tbl_le m _, rfl⟩
    refine ⟨fun a => ?_, Or.inl rfl⟩
    rw [e]
    fin_cases a <;> simp [S1x8x128, S50257x8x128] <;> omega
  · obtain ⟨w, hw, e⟩ : ∃ w : BitVec 32, w.toNat ≤ 50256 ∧ cc0_transform_1 Facts₀.k0_off1_inb Facts₀.numel1_S1 (tbl m) i = ![w.toNat, 0, 0] :=
      ⟨_, tbl_le m _, rfl⟩
    refine ⟨fun a => ?_, Or.inl rfl⟩
    rw [e]
    fin_cases a <;> simp [S1x1x1, S50257x1x1] <;> omega

end Cert.Kernel.Tbl

end
-- ==== Proof.TableIdeal.lean ====
/-
  The prefetched table and the pipeline's side condition on it.

  The table the pallas_call prefetches is computed by the host lines before it: the [4, 2048] index words flattened to
  [8192] and clipped, `minimum 50256 (maximum 0 w)`, both signed. So entry t is the clip of word (t / 2048, t % 2048),
  and as a natural number every entry is at most 50256 WHATEVER the words are. The weight and the mask windows read block
  (entry, 0, 0) of arrays with 50257 leading blocks: every such block lies inside its array, which is the side condition
  the frame is stated under. No precondition is used.
-/
import proofs.«405861_j31190052504336_2_alg».proof.Proof.Gen.KernelIdeal.Frame
import proofs.«405861_j31190052504336_2_alg».proof.Proof.LibClampWord
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.KernelIdeal.Tbl

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The index words as the launch memory holds them (the program runs on one device). -/
abbrev words : IVec S4x2048 32 := m (((0 : Dev nD) : Thread nD τ).loc main_arg0)

/-- The table is the host lines' term: the flattened words, clipped below by 0 and above by 50256. -/
theorem tbl_eq : (tbl m 0 : IVec S8192 32) = minsi (broadcastInDim S8192 ![] Facts₀.bcast_S_S8192 (constantI S_ 32 50256#32))
      (maxsi (broadcastInDim S8192 ![] Facts₀.bcast_S_S8192 (constantI S_ 32 0#32)) (shapeCast S8192 (words m) Facts₀.shapeCasts_S4x2048_S8192)) := by
  unfold tbl
  show V m 0 main_v1 = _
  dsimp only [V, V0]
  simp only [hostOps0, hostOps0_1, hostOps0_2, List.flatten_cons, List.flatten_nil, List.append_nil, List.cons_append, List.nil_append]
  after_results
  rfl

/-- Entry `t` of the table is the clip of the word of token `(t / 2048, t % 2048)`: the flattening is row-major. -/
theorem tbl_apply (t : Fin 8192) : (tbl m 0 : IVec S8192 32) (ix1 t)
    = IntOp.minsi 50256#32 (IntOp.maxsi 0#32 (words m (ix2 ⟨t.val / 2048, by omega⟩ ⟨t.val % 2048, Nat.mod_lt _ (by decide)⟩))) := by
  rw [tbl_eq]
  show IntOp.minsi _ (IntOp.maxsi _ (shapeCast S8192 (words m) Facts₀.shapeCasts_S4x2048_S8192 (ix1 t))) = _
  rw [shapeCast_apply (words m) Facts₀.shapeCasts_S4x2048_S8192 (ix1 t) (ix2 ⟨t.val / 2048, by omega⟩ ⟨t.val % 2048, Nat.mod_lt _ (by decide)⟩) (by
    rw [Shape.rowMajor_val_two, Shape.rowMajor_val_one]
    show t.val / 2048 * 2048 + t.val % 2048 = t.val
    omega)]
  rfl

/-- Every entry, read as a natural number, is at most 50256: the clip's upper end, for any word. -/
theorem tbl_le' (t : Fin 8192) : ((tbl m 0 : IVec S8192 32) (ix1 t)).toNat ≤ 50256 := by
  rw [tbl_apply, ClampWord.clip_toNat _ _ (by decide)]
  exact Nat.min_le_right _ _

/-- The same at any index of the [8192] table. -/
theorem tbl_le (x : S8192.Idx) : ((tbl m 0 : IVec S8192 32) x).toNat ≤ 50256 := by
  obtain ⟨t, rfl⟩ : ∃ t : Fin 8192, x = ix1 t := ⟨x 0, eq_ix1 x⟩
  exact tbl_le' m t

/-- THE SIDE CONDITION: at every grid point the weight block `(entry, 0, 0)` of shape [1, 8, 128] lies inside the
    [50257, 8, 128] array and the mask block `(entry, 0, 0)` of shape [1, 1, 1] inside the [50257, 1, 1] array, since
    `entry + 1 ≤ 50257`; f32 transfers are word-exact. -/
theorem ok : Ok m := by
  refine ⟨fun i => ?_, fun i => ?_⟩
  · obtain ⟨w, hw, e⟩ : ∃ w : BitVec 32, w.toNat ≤ 50256 ∧ cc0_transform_0 Facts₀.k0_off1_inb Facts₀.numel1_S1 (tbl m) i = ![w.toNat, 0, 0] :=
      ⟨_, tbl_le m _, rfl⟩
    refine ⟨fun a => ?_, Or.inl rfl⟩
    rw [e]
    fin_cases a <;> simp [S1x8x128, S50257x8x128] <;> omega
  · obtain ⟨w, hw, e⟩ : ∃ w : BitVec 32, w.toNat ≤ 50256 ∧ cc0_transform_1 Facts₀.k0_off1_inb Facts₀.numel1_S1 (tbl m) i = ![w.toNat, 0, 0] :=
      ⟨_, tbl_le m _, rfl⟩
    refine ⟨fun a => ?_, Or.inl rfl⟩
    rw [e]
    fin_cases a <;> simp [S1x1x1, S50257x1x1] <;> omega

end Cert.KernelIdeal.Tbl

end
-- ==== Proof.LibGatherRows3.lean ====
/-
  A row gather through a three-axis array of start indices, read at an index.

  `x[idx]` of a matrix `x : [N, C]` at an integer array `idx : [B, S]` lowers to a `stablehlo.gather` over
  the indices viewed as `[B, S, 1]`: offset axis `2`, collapsed slice axis `0`, start index map `[0]`, index
  vector axis `2`, slice sizes `[1, C]`. Result element `(b, s, d)` is `x` at row `idx[b, s, 0]` — read as a
  signed integer and clamped into `[0, N − 1]`, as the gather clamps every start index — and column `d`.
-/
import Idealize.ShloMosaic.Lib.ValueIdx

namespace Idealize.ShloMosaic.GatherRows3

open Idealize.ShloMosaic Idealize.ShloMosaic.ValueIdx

variable {α : Type}

/-- The dimension numbers of that gather, for an operand `[N, C]`, start indices `[B, S, 1]` and a result
    `[B, S, C]`; their conditions `wf` are decided on a program's literal shapes. -/
abbrev rowsDims (N C B S : Nat)
    (wf : GatherDims.WF ⟨2, ![N, C]⟩ ⟨3, ![B, S, 1]⟩ ⟨3, ![B, S, C]⟩ [2] [0] [] [0] [] 2 ![1, C]) :
    GatherDims ⟨2, ![N, C]⟩ ⟨3, ![B, S, 1]⟩ ⟨3, ![B, S, C]⟩ where
  offsetDims := [2]
  collapsedSliceDims := [0]
  operandBatchingDims := []
  startIndicesBatchingDims := []
  startIndexMap := [0]
  indexVectorDim := 2
  sliceSizes := ![1, C]
  wf := wf

/-- The row a start-index word selects in a table of `N` rows: the word read signed, a negative one as `0`,
    clamped to the last row. -/
def rowOf (N : Nat) (hN : 0 < N) {w : Nat} (v : BitVec w) : Fin N := ⟨min v.toInt.toNat (N - 1), by omega⟩

theorem rowOf_val (N : Nat) (hN : 0 < N) {w : Nat} (v : BitVec w) : (rowOf N hN v).val = min v.toInt.toNat (N - 1) := rfl

/-- THE GATHER READ AT `(b, s, d)`: the operand at the row the start index `idx[b, s, 0]` selects, column `d`. -/
theorem gather_rows_apply {N C B S w : Nat} (hN : 0 < N)
    (wf : GatherDims.WF ⟨2, ![N, C]⟩ ⟨3, ![B, S, 1]⟩ ⟨3, ![B, S, C]⟩ [2] [0] [] [0] [] 2 ![1, C])
    (x : (⟨2, ![N, C]⟩ : Shape).Idx → α) (idx : IVec ⟨3, ![B, S, 1]⟩ w) (b : Fin B) (s : Fin S) (d : Fin C) :
    Host.gather (rowsDims N C B S wf) x idx (ix3 b s d)
      = x (ix2 (rowOf N hN (idx (ix3 b s (0 : Fin 1)))) d) := by
  unfold Host.gather
  congr 1
  funext a
  refine Fin.ext ?_
  match a with
  | ⟨0, _⟩ =>
    show (rowsDims N C B S wf).start (ix3 b s d) idx 0 + (rowsDims N C B S wf).batchCoord (ix3 b s d) 0
      + (rowsDims N C B S wf).offCoord (ix3 b s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C B S wf).startIndexMap from List.mem_singleton.mpr rfl)]
    have hsi : (rowsDims N C B S wf).siIdx (ix3 b s d) ⟨List.idxOf (0 : Fin 2) (rowsDims N C B S wf).startIndexMap,
        List.idxOf_lt_length_iff.2 (List.mem_singleton.mpr rfl)⟩ = ix3 b s (0 : Fin 1) := by
      funext e; refine Fin.ext ?_
      match e with
      | ⟨0, _⟩ => rfl
      | ⟨1, _⟩ => rfl
      | ⟨2, _⟩ => rfl
    rw [hsi]
    rfl
  | ⟨1, _⟩ =>
    show (rowsDims N C B S wf).start (ix3 b s d) idx 1 + (rowsDims N C B S wf).batchCoord (ix3 b s d) 1
      + (rowsDims N C B S wf).offCoord (ix3 b s d) 1 = d.val
    have hstart : (rowsDims N C B S wf).start (ix3 b s d) idx 1 = 0 := by
      unfold GatherDims.start
      rw [dif_neg (show (1 : Fin 2) ∉ (rowsDims N C B S wf).startIndexMap from
        fun h => absurd (congrArg Fin.val (List.mem_singleton.mp h)) Nat.one_ne_zero)]
    have hmem : (1 : Fin 2) ∈ (rowsDims N C B S wf).sKept :=
      (GatherDims.mem_sKept _ _).mpr ⟨fun h => absurd (congrArg Fin.val (List.mem_singleton.mp h)) Nat.one_ne_zero, List.not_mem_nil⟩
    rw [hstart, GatherDims.batchCoord_eq_zero _ _ _ List.not_mem_nil]
    simp only [Nat.zero_add]
    unfold GatherDims.offCoord
    rw [dif_pos hmem]
    rfl

end Idealize.ShloMosaic.GatherRows3
-- ==== Proof.Spec.lean ====
/-
  The embedding lookup with a per-row scale, as one function of the three arrays.

  For a token (b, s) with index word `w = words[b, s]`, the row read is `w` as a signed number cut into
  `[0, 50256]` (a negative word reads row 0, a word past the table its last row), and the result at
  (b, s, d) is `weight[row, d] · mask[row, 0]`. Both programs are shown to compute this function; the product is the
  one float multiplication, so nothing about the extended reals is used.
-/
import proofs.«405861_j31190052504336_2_alg».proof.Proof.LibGatherRows3

noncomputable section

namespace Cert.Spec

open Idealize.ShloMosaic Idealize.ShloMosaic.ValueIdx Idealize.ShloMosaic.GatherRows3

variable {F : FTy → Type} [FloatOps F]

/-- The table row an index word selects. -/
abbrev rowW (w : BitVec 32) : Fin 50257 := rowOf 50257 (by decide) w

/-- The result array: row `rowW words[b, s]` of the weights, scaled by that row's mask entry. -/
def G (words : IVec ⟨2, ![4, 2048]⟩ 32) (weight : FVec F ⟨2, ![50257, 1024]⟩ .f32) (mask : FVec F ⟨2, ![50257, 1]⟩ .f32) :
    FVec F ⟨3, ![4, 2048, 1024]⟩ .f32 :=
  fun j => FloatOps.mulf (weight (ix2 (rowW (words (ix2 (j 0) (j 1)))) (j 2)))
    (mask (ix2 (rowW (words (ix2 (j 0) (j 1)))) (0 : Fin 1)))

theorem G_apply (words : IVec ⟨2, ![4, 2048]⟩ 32) (weight : FVec F ⟨2, ![50257, 1024]⟩ .f32) (mask : FVec F ⟨2, ![50257, 1]⟩ .f32)
    (b : Fin 4) (s : Fin 2048) (d : Fin 1024) :
    G words weight mask (ix3 b s d)
      = FloatOps.mulf (weight (ix2 (rowW (words (ix2 b s))) d)) (mask (ix2 (rowW (words (ix2 b s))) (0 : Fin 1))) := rfl

end Cert.Spec

end
-- ==== Proof.KernelValue.lean ====
/-
  What the kernel's result array holds, as a function of the three argument arrays.

  The pallas_call runs 8192 grid points, one per token. Point t is handed the weight block (table[t], 0, 0) of the
  [50257, 8, 128] view of the weights — one table row as an [8, 128] tile — and the one mask entry of that row; its body
  stores their product, the mask entry broadcast over the tile, into output block (t, 0, 0). Every point writes its block
  back, the blocks tile the [8192, 8, 128] output, and two host reshapes re-lay it as [4, 2048, 1024]. Reading the
  reshapes row-major, entry (b, s, d) of the result is `weight[row, d] · mask[row, 0]` with `row` the table entry of
  token 2048 b + s, which is the specification's row of the word at (b, s).

  The arithmetic on block indices is done for an arbitrary admissible table first and used at the launch memory's table
  afterwards: a block index that reads the table is then a variable's entry, not a term to be computed.
-/
import proofs.«405861_j31190052504336_2_alg».proof.Proof.Gen.KernelIdeal.Frame
import proofs.«405861_j31190052504336_2_alg».proof.Proof.TableIdeal
import proofs.«405861_j31190052504336_2_alg».proof.Proof.LibClampWord
import proofs.«405861_j31190052504336_2_alg».proof.Proof.Spec
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.KernelIdeal.Val

open Cert.KernelIdeal Cert.KernelIdeal.Gen Cert.KernelIdeal.Tbl
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The grid and the printed index maps -/

/-- The grid has one axis: a point's coordinate is its number. -/
theorem coord0 (t : Fin grid0.N) : (grid0.coords t 0).val = t.val := by
  have hN : grid0.N = 8192 := N_0
  show t.val / grid0.stride 0 % 8192 = t.val
  rw [show grid0.stride 0 = 1 from by decide]
  have := t.isLt
  omega

/-- Window 0's (and window 1's) block row at grid coordinates `i`, for ANY table: the table's word at `i`. -/
theorem transform0_0 (pf : pre0.Contents (Elt F)) (i : grid0.Coords) :
    cc0_transform_0 Facts₀.k0_off1_inb Facts₀.numel1_S1 pf i (0 : Fin 3)
      = ((pf 0 : IVec S8192 32) (ix1 ⟨(i 0).val, (i 0).isLt⟩)).toNat := by
  unfold cc0_transform_0
  show ((pf 0 : IVec S8192 32) _).toNat = _
  refine congrArg (fun x => BitVec.toNat ((pf 0 : IVec S8192 32) x)) ?_
  funext a
  apply Fin.ext
  match a with
  | ⟨0, _⟩ =>
    show BitVec.toNat (BitVec.ofNat 32 (i 0).val) + 1 * 0 = (i 0).val
    rw [BitVec.toNat_ofNat]
    have h : (i 0).val < 8192 := (i 0).isLt
    omega

/-- Its other two block coordinates are 0: the block spans the tile's [8, 128] (the mask's [1, 1]) extent whole. -/
theorem transform0_1 (pf : pre0.Contents (Elt F)) (i : grid0.Coords) :
    cc0_transform_0 Facts₀.k0_off1_inb Facts₀.numel1_S1 pf i (1 : Fin 3) = 0 := rfl
theorem transform0_2 (pf : pre0.Contents (Elt F)) (i : grid0.Coords) :
    cc0_transform_0 Facts₀.k0_off1_inb Facts₀.numel1_S1 pf i (2 : Fin 3) = 0 := rfl
/-- The mask's window reads the same table word: the two index maps are one text. -/
theorem transform1_0 (pf : pre0.Contents (Elt F)) (i : grid0.Coords) :
    cc0_transform_1 Facts₀.k0_off1_inb Facts₀.numel1_S1 pf i (0 : Fin 3)
      = cc0_transform_0 Facts₀.k0_off1_inb Facts₀.numel1_S1 pf i (0 : Fin 3) := rfl
theorem transform1_1 (pf : pre0.Contents (Elt F)) (i : grid0.Coords) :
    cc0_transform_1 Facts₀.k0_off1_inb Facts₀.numel1_S1 pf i (1 : Fin 3) = 0 := rfl
theorem transform1_2 (pf : pre0.Contents (Elt F)) (i : grid0.Coords) :
    cc0_transform_1 Facts₀.k0_off1_inb Facts₀.numel1_S1 pf i (2 : Fin 3) = 0 := rfl

/-- A [1, 8, 128] block index has leading coordinate 0. -/
theorem y0 (y : S1x8x128.Idx) : (y 0).val = 0 := by
  have h := (y 0).isLt
  have e : S1x8x128.size 0 = 1 := rfl
  omega

/-! ## Where the blocks lie, at ANY admissible contents of the table

Stated over an arbitrary table `pf` with its side condition, so that the arithmetic on block indices is done once,
on a variable; the certificate uses them at the table the launch memory holds. -/

section AnyTable
variable (pf : pre0.Contents (Elt F)) (h : ok0 pf)

/-- The windows' block indices at a point are the printed index maps at the point's coordinates. -/
theorem index0_gen (t : Fin (cfg0 ⟨pf, h⟩).N) :
    ((cfg0 ⟨pf, h⟩).win 0).index t = cc0_transform_0 Facts₀.k0_off1_inb Facts₀.numel1_S1 pf (grid0.coords t) := rfl
theorem index1_gen (t : Fin (cfg0 ⟨pf, h⟩).N) :
    ((cfg0 ⟨pf, h⟩).win 1).index t = cc0_transform_1 Facts₀.k0_off1_inb Facts₀.numel1_S1 pf (grid0.coords t) := rfl
theorem index2_gen (t : Fin (cfg0 ⟨pf, h⟩).N) :
    ((cfg0 ⟨pf, h⟩).win 2).index t = cc0_transform_2 (grid0.coords t) := rfl

/-- Window 0's block at point `t`: leading coordinate the table's word at `t`, the other two the block's own. -/
theorem emb0_0 (t : Fin (cfg0 ⟨pf, h⟩).N) (y : S1x8x128.Idx) :
    ((((cfg0 ⟨pf, h⟩).win 0).blk t).view.emb y (0 : Fin 3)).val
      = ((pf 0 : IVec S8192 32) (ix1 ⟨t.val, lt_of_lt_of_eq t.isLt N_0⟩)).toNat := by
  refine (Pipeline.Window.rect_emb_val ((cfg0 ⟨pf, h⟩).win 0) t y (0 : Fin 3)).trans ?_
  rw [index0_gen pf h t, transform0_0, y0]
  show _ * 1 + 0 = _
  rw [Nat.mul_one, Nat.add_zero]
  exact congrArg (fun x => BitVec.toNat ((pf 0 : IVec S8192 32) (ix1 x))) (Fin.ext (coord0 t))
theorem emb0_1 (t : Fin (cfg0 ⟨pf, h⟩).N) (y : S1x8x128.Idx) :
    ((((cfg0 ⟨pf, h⟩).win 0).blk t).view.emb y (1 : Fin 3)).val = (y 1).val := by
  refine (Pipeline.Window.rect_emb_val ((cfg0 ⟨pf, h⟩).win 0) t y (1 : Fin 3)).trans ?_
  rw [index0_gen pf h t, transform0_1]
  show 0 * 8 + (y 1).val = (y 1).val
  omega
theorem emb0_2 (t : Fin (cfg0 ⟨pf, h⟩).N) (y : S1x8x128.Idx) :
    ((((cfg0 ⟨pf, h⟩).win 0).blk t).view.emb y (2 : Fin 3)).val = (y 2).val := by
  refine (Pipeline.Window.rect_emb_val ((cfg0 ⟨pf, h⟩).win 0) t y (2 : Fin 3)).trans ?_
  rw [index0_gen pf h t, transform0_2]
  show 0 * 128 + (y 2).val = (y 2).val
  omega

/-- Window 1's block at point `t`: the one entry at the table's word. -/
theorem emb1_0 (t : Fin (cfg0 ⟨pf, h⟩).N) (y : S1x1x1.Idx) :
    ((((cfg0 ⟨pf, h⟩).win 1).blk t).view.emb y (0 : Fin 3)).val
      = ((pf 0 : IVec S8192 32) (ix1 ⟨t.val, lt_of_lt_of_eq t.isLt N_0⟩)).toNat := by
  have h0 : (y 0).val = 0 := by have hh := (y 0).isLt; have e : S1x1x1.size 0 = 1 := rfl; omega
  refine (Pipeline.Window.rect_emb_val ((cfg0 ⟨pf, h⟩).win 1) t y (0 : Fin 3)).trans ?_
  rw [index1_gen pf h t, transform1_0, transform0_0, h0]
  show _ * 1 + 0 = _
  rw [Nat.mul_one, Nat.add_zero]
  exact congrArg (fun x => BitVec.toNat ((pf 0 : IVec S8192 32) (ix1 x))) (Fin.ext (coord0 t))
theorem emb1_1 (t : Fin (cfg0 ⟨pf, h⟩).N) (y : S1x1x1.Idx) :
    ((((cfg0 ⟨pf, h⟩).win 1).blk t).view.emb y (1 : Fin 3)).val = 0 := by
  have h1 : (y 1).val = 0 := by have hh := (y 1).isLt; have e : S1x1x1.size 1 = 1 := rfl; omega
  refine (Pipeline.Window.rect_emb_val ((cfg0 ⟨pf, h⟩).win 1) t y (1 : Fin 3)).trans ?_
  rw [index1_gen pf h t, transform1_1, h1]
  rfl
theorem emb1_2 (t : Fin (cfg0 ⟨pf, h⟩).N) (y : S1x1x1.Idx) :
    ((((cfg0 ⟨pf, h⟩).win 1).blk t).view.emb y (2 : Fin 3)).val = 0 := by
  have h2 : (y 2).val = 0 := by have hh := (y 2).isLt; have e : S1x1x1.size 2 = 1 := rfl; omega
  refine (Pipeline.Window.rect_emb_val ((cfg0 ⟨pf, h⟩).win 1) t y (2 : Fin 3)).trans ?_
  rw [index1_gen pf h t, transform1_2, h2]
  rfl

/-- Window 2's block at point `t` is tile `t` of the output array. -/
theorem emb2_0 (t : Fin (cfg0 ⟨pf, h⟩).N) (y : S1x8x128.Idx) :
    ((((cfg0 ⟨pf, h⟩).win 2).blk t).view.emb y (0 : Fin 3)).val = t.val := by
  refine (Pipeline.Window.rect_emb_val ((cfg0 ⟨pf, h⟩).win 2) t y (0 : Fin 3)).trans ?_
  rw [index2_gen pf h t, y0]
  show (BitVec.ofNat 32 (grid0.coords t 0).val).toNat * 1 + 0 = t.val
  rw [coord0, BitVec.toNat_ofNat]
  have ht : t.val < 8192 := lt_of_lt_of_eq t.isLt N_0
  omega
theorem emb2_1 (t : Fin (cfg0 ⟨pf, h⟩).N) (y : S1x8x128.Idx) :
    ((((cfg0 ⟨pf, h⟩).win 2).blk t).view.emb y (1 : Fin 3)).val = (y 1).val := by
  refine (Pipeline.Window.rect_emb_val ((cfg0 ⟨pf, h⟩).win 2) t y (1 : Fin 3)).trans ?_
  rw [index2_gen pf h t]
  show 0 * 8 + (y 1).val = (y 1).val
  omega
theorem emb2_2 (t : Fin (cfg0 ⟨pf, h⟩).N) (y : S1x8x128.Idx) :
    ((((cfg0 ⟨pf, h⟩).win 2).blk t).view.emb y (2 : Fin 3)).val = (y 2).val := by
  refine (Pipeline.Window.rect_emb_val ((cfg0 ⟨pf, h⟩).win 2) t y (2 : Fin 3)).trans ?_
  rw [index2_gen pf h t]
  show 0 * 128 + (y 2).val = (y 2).val
  omega

/-- Every index of the output array lies in the block of the point its leading coordinate names. -/
theorem cover_gen (i : S8192x8x128.Idx) :
    ∃ t : Fin (cfg0 ⟨pf, h⟩).N, ((cfg0 ⟨pf, h⟩).win 2).flush t = true ∧ i ∈ (((cfg0 ⟨pf, h⟩).win 2).blk t).view.set := by
  have hlt : (i 0).val < (cfg0 ⟨pf, h⟩).N := by
    have h1 : (i 0).val < 8192 := (i 0).isLt
    have h2 : (cfg0 ⟨pf, h⟩).N = 8192 := N_0
    omega
  refine ⟨⟨(i 0).val, hlt⟩, flush0_2 ⟨pf, h⟩ _, ?_⟩
  show i ∈ ((View.whole main_v4).slice (((cfg0 ⟨pf, h⟩).win 2).rect ⟨(i 0).val, hlt⟩)).set
  refine (congrArg (fun S : Finset S8192x8x128.Idx => i ∈ S) (View.set_slice_whole main_v4 _)).mpr ?_
  refine Rect.mem_set_unit.mpr (fun a => ?_)
  have h1 : (i 1).val < 8 := (i 1).isLt
  have h2 : (i 2).val < 128 := (i 2).isLt
  match a with
  | ⟨0, _⟩ =>
    show ((cfg0 ⟨pf, h⟩).win 2).index ⟨(i 0).val, hlt⟩ (0 : Fin 3) * 1 ≤ (i 0).val
      ∧ (i 0).val < ((cfg0 ⟨pf, h⟩).win 2).index ⟨(i 0).val, hlt⟩ (0 : Fin 3) * 1 + 1
    rw [index2_gen pf h]
    show (BitVec.ofNat 32 (grid0.coords ⟨(i 0).val, hlt⟩ 0).val).toNat * 1 ≤ (i 0).val
      ∧ (i 0).val < (BitVec.ofNat 32 (grid0.coords ⟨(i 0).val, hlt⟩ 0).val).toNat * 1 + 1
    rw [coord0, BitVec.toNat_ofNat]
    have h0 : (i 0).val < 8192 := (i 0).isLt
    show (i 0).val % 2 ^ 32 * 1 ≤ (i 0).val ∧ (i 0).val < (i 0).val % 2 ^ 32 * 1 + 1
    omega
  | ⟨1, _⟩ =>
    show ((cfg0 ⟨pf, h⟩).win 2).index ⟨(i 0).val, hlt⟩ (1 : Fin 3) * 8 ≤ (i 1).val
      ∧ (i 1).val < ((cfg0 ⟨pf, h⟩).win 2).index ⟨(i 0).val, hlt⟩ (1 : Fin 3) * 8 + 8
    rw [index2_gen pf h]
    show 0 * 8 ≤ (i 1).val ∧ (i 1).val < 0 * 8 + 8
    omega
  | ⟨2, _⟩ =>
    show ((cfg0 ⟨pf, h⟩).win 2).index ⟨(i 0).val, hlt⟩ (2 : Fin 3) * 128 ≤ (i 2).val
      ∧ (i 2).val < ((cfg0 ⟨pf, h⟩).win 2).index ⟨(i 0).val, hlt⟩ (2 : Fin 3) * 128 + 128
    rw [index2_gen pf h]
    show 0 * 128 ≤ (i 2).val ∧ (i 2).val < 0 * 128 + 128
    omega

end AnyTable

/-- A grid point as an index of the table. -/
abbrev pt (hO : Ok m) (t : Fin (cfgM m hO).N) : Fin 8192 := ⟨t.val, lt_of_lt_of_eq t.isLt N_0⟩

/-! ## The arrays the region finds -/

/-- The weights as the region finds them: the host's free row-major view [50257, 1024] → [50257, 8, 128]. -/
theorem V_v2 (c : Dev nD) : (V m c main_v2 : FVec F S50257x8x128 .f32)
    = shapeCast S50257x8x128 (m ((c : Thread nD τ).loc main_arg1)) Facts₀.shapeCasts_S50257x1024_S50257x8x128 := by
  dsimp only [V, V0]
  simp only [hostOps0, hostOps0_1, hostOps0_2, List.flatten_cons, List.flatten_nil, List.append_nil, List.cons_append, List.nil_append]
  after_results
  rfl

/-- The mask as the region finds it: [50257, 1] viewed as [50257, 1, 1]. -/
theorem V_v3 (c : Dev nD) : (V m c main_v3 : FVec F S50257x1x1 .f32)
    = shapeCast S50257x1x1 (m ((c : Thread nD τ).loc main_arg2)) Facts₀.shapeCasts_S50257x1_S50257x1x1 := by
  dsimp only [V, V0]
  simp only [hostOps0, hostOps0_1, hostOps0_2, List.flatten_cons, List.flatten_nil, List.append_nil, List.cons_append, List.nil_append]
  after_results
  rfl

/-! ## The body -/

/-- The body's loads and its store are at offset zero of whole staging buffers. -/
theorem hz : (![0, 0, 0] : Fin 3 → Nat) = fun _ => 0 := funext fun a => by fin_cases a <;> rfl

/-- What the body leaves in the output's staging buffer: its one store covers the block, and its payload is the
    product of the two loaded blocks — whatever the buffer held before (the body's load of it is not used). -/
theorem out_eq (c : Dev nD) (i : grid0.Coords) (a2 : Memref sig .tc .vmem S1x8x128 .f32) (h2 : a2.IsWhole)
    (a3 : Memref sig .tc .vmem S1x1x1 .f32) (h3 : a3.IsWhole) (a4 : Memref sig .tc .vmem S1x8x128 .f32) (h4 : a4.IsWhole)
    (x0 : Vec F S1x8x128 .f32) (x1 : Vec F S1x1x1 .f32) (xt0 : TbBuf0 (F := F) c tbM0_0) :
    out0_A_2 c i a2 h2 a3 h3 a4 h4 x0 x1 xt0 = k0_pay1 x0 x1 := by
  unfold out0_A_2
  rw [View.read_writes_eq_canon _ _ _ (cover0_A_2 c i a2 h2 a3 h3 a4 h4 x0 x1 xt0)]
  unfold kernelRun0_A
  dsimp only
  sl_unfold_words
  rw [View.canon_unit_zero hz]
  simp only [View.readAt_eq_ld, h2.read_unread, h3.read_unread, View.ld_unit_zero (S := S1x8x128) hz,
    View.ld_unit_zero (S := S1x1x1) hz]

/-- The stored value at an index of the block: the weight block's entry times the one mask entry. -/
theorem pay_apply (x0 : Vec F S1x8x128 .f32) (x1 : Vec F S1x1x1 .f32) (y : S1x8x128.Idx) :
    k0_pay1 x0 x1 y = FloatOps.mulf (x0 y) (x1 (ix3 (0 : Fin 1) (0 : Fin 1) (0 : Fin 1))) := by
  unfold k0_pay1
  show FloatOps.mulf (shapeCast S1x8x128 x0 _ y) (broadcastTo S1x8x128 (shapeCast S1x1x1 x1 _) _ y) = _
  rw [shapeCast_self, shapeCast_self,
    broadcastTo_apply x1 _ y (ix3 (0 : Fin 1) (0 : Fin 1) (0 : Fin 1)) (fun a => by
      match a with
      | ⟨0, _⟩ => rfl
      | ⟨1, _⟩ => rfl
      | ⟨2, _⟩ => rfl)]

/-- The row a table names for grid point `t`, for a table whose words are all at most 50256. -/
def rowOfTbl (pf : pre0.Contents (Elt F)) (hle : ∀ t : Fin 8192, ((pf 0 : IVec S8192 32) (ix1 t)).toNat ≤ 50256) (t : Fin 8192) :
    Fin 50257 := ⟨((pf 0 : IVec S8192 32) (ix1 t)).toNat, Nat.lt_succ_of_le (hle t)⟩
theorem rowOfTbl_val (pf : pre0.Contents (Elt F)) (hle : ∀ t : Fin 8192, ((pf 0 : IVec S8192 32) (ix1 t)).toNat ≤ 50256)
    (t : Fin 8192) : (rowOfTbl pf hle t).val = ((pf 0 : IVec S8192 32) (ix1 t)).toNat := rfl

/-- The table row of grid point `t`, at the table the launch memory holds. -/
abbrev rowT (t : Fin 8192) : Fin 50257 := rowOfTbl (tbl m) (tbl_le' m) t

/-- As a number it is the table's entry. -/
theorem rowT_val (t : Fin 8192) : (rowT m t).val = ((tbl m 0 : IVec S8192 32) (ix1 t)).toNat :=
  rowOfTbl_val (tbl m) (tbl_le' m) t

/-- The weight block point `t` is handed: row `rowT t` of the [50257, 8, 128] view of the weights. -/
theorem iblk0_apply (hO : Ok m) (c : Dev nD) (t : Fin (cfgM m hO).N) (y : S1x8x128.Idx) :
    (iblk m hO c 0 t : Vec F S1x8x128 .f32) y
      = (V m c main_v2 : FVec F S50257x8x128 .f32) (ix3 (rowT m (pt m hO t)) (y 1) (y 2)) := by
  unfold iblk
  show (V m c main_v2 : FVec F S50257x8x128 .f32) ((((cfgM m hO).win 0).blk t).view.emb y) = _
  refine congrArg (V m c main_v2 : FVec F S50257x8x128 .f32) ?_
  funext a
  apply Fin.ext
  match a with
  | ⟨0, _⟩ => exact (emb0_0 (tbl m) hO t y).trans (rowT_val m (pt m hO t)).symm
  | ⟨1, _⟩ => exact emb0_1 (tbl m) hO t y
  | ⟨2, _⟩ => exact emb0_2 (tbl m) hO t y

/-- The mask block point `t` is handed: the one entry of row `rowT t` of the [50257, 1, 1] view of the mask. -/
theorem iblk1_apply (hO : Ok m) (c : Dev nD) (t : Fin (cfgM m hO).N) (y : S1x1x1.Idx) :
    (iblk m hO c 1 t : Vec F S1x1x1 .f32) y
      = (V m c main_v3 : FVec F S50257x1x1 .f32) (ix3 (rowT m (pt m hO t)) (0 : Fin 1) (0 : Fin 1)) := by
  unfold iblk
  show (V m c main_v3 : FVec F S50257x1x1 .f32) ((((cfgM m hO).win 1).blk t).view.emb y) = _
  refine congrArg (V m c main_v3 : FVec F S50257x1x1 .f32) ?_
  funext a
  apply Fin.ext
  match a with
  | ⟨0, _⟩ => exact (emb1_0 (tbl m) hO t y).trans (rowT_val m (pt m hO t)).symm
  | ⟨1, _⟩ => exact emb1_1 (tbl m) hO t y
  | ⟨2, _⟩ => exact emb1_2 (tbl m) hO t y

/-! ## From the blocks to the output array -/

/-- What the kernel leaves in its output array [8192, 8, 128]: token `t`'s tile is the weight row the table names for
    `t`, scaled by that row's mask entry. -/
def outArr (c : Dev nD) : FVec F S8192x8x128 .f32 := fun j =>
  FloatOps.mulf ((V m c main_v2 : FVec F S50257x8x128 .f32) (ix3 (rowT m (j 0)) (j 1) (j 2)))
    ((V m c main_v3 : FVec F S50257x1x1 .f32) (ix3 (rowT m (j 0)) (0 : Fin 1) (0 : Fin 1)))

/-- Where the output block of point `t` lies in the array: tile `t`. -/
theorem emb2 (hO : Ok m) (t : Fin (cfgM m hO).N) (y : S1x8x128.Idx) :
    (((cfgM m hO).win 2).blk t).view.emb y = (ix3 (pt m hO t) (y 1) (y 2) : S8192x8x128.Idx) := by
  funext a
  apply Fin.ext
  match a with
  | ⟨0, _⟩ => exact emb2_0 (tbl m) hO t y
  | ⟨1, _⟩ => exact emb2_1 (tbl m) hO t y
  | ⟨2, _⟩ => exact emb2_2 (tbl m) hO t y

/-- WHAT POINT `t` WRITES BACK is tile `t` of `outArr`. -/
theorem flushed_eq (hO : Ok m) (c : Dev nD) (t : Fin (cfgM m hO).N) :
    (dats m hO 0 c).flushed 2 t = (((cfgM m hO).win 2).blk t).view.read (Elt F) (outArr m c) := by
  show ((cfgM m hO).win 2).cut ((cfgM m hO).grid.coords t) ((dats m hO 0 c).after 2 t) = _
  rw [after0_2]
  funext y
  show outsAt0 m hO c t y = outArr m c ((((cfgM m hO).win 2).blk t).view.emb y)
  unfold outsAt0
  refine (congrFun (out_eq c (grid0.coords t) (ms0_0 m hO t) (hs0_0 m hO t) (ms0_1 m hO t) (hs0_1 m hO t) (ms0_2 m hO t)
    (hs0_2 m hO t) (iblk m hO c 0 t) (iblk m hO c 1 t) (tbl m 0)) y).trans ?_
  refine (pay_apply (iblk m hO c 0 t) (iblk m hO c 1 t) y).trans ?_
  rw [iblk0_apply m hO c t y, iblk1_apply m hO c t (ix3 (0 : Fin 1) (0 : Fin 1) (0 : Fin 1)), emb2 m hO t y]
  rfl

/-- THE OUTPUT ARRAY after the run: every tile written by its point. -/
theorem final (hO : Ok m) (c : Dev nD) : (dats m hO 0 c).arrAt 2 (cfgM m hO).N = outArr m c :=
  (dats m hO 0 c).arrAt_eq_of_cover 2 (outArr m c) (fun t _ => flushed_eq m hO c t) (cover_gen (tbl m) hO)

/-- The host lines after the region re-lay the [8192, 8, 128] array as [4, 2048, 1024]. -/
theorem result_eq (hO : Ok m) (c : Dev nD) :
    Pipeline.afterTail pcfgs (fun _ => adm m hO) (dats m hO) 0 (V0 m) [hostOps1] c main_v6
      = shapeCast S4x2048x1024 (shapeCast S8192x1024 (outArr m c) Facts₀.shapeCasts_S8192x8x128_S8192x1024)
          Facts₀.shapeCasts_S8192x1024_S4x2048x1024 := by
  unfold Pipeline.afterTail
  show StableHlo.after hostOps1 _ (Proc.devRef .tc main_v6) = _
  after_results
  refine congrArg (fun A : FVec F S8192x8x128 .f32 => shapeCast S4x2048x1024
    (shapeCast S8192x1024 A Facts₀.shapeCasts_S8192x8x128_S8192x1024) Facts₀.shapeCasts_S8192x1024_S4x2048x1024) ?_
  exact (Pipeline.withArrays_arr spec0 winFacts0.arr_inj c _ _ 2).trans (final m hO c)

/-- THE KERNEL'S RUN with its result named: the [4, 2048, 1024] result is the re-laid output array, the arguments
    are unchanged. -/
theorem run (hO : Ok m) : θ_run defs (onTc (τ := τ) (main (F := F))) ⟨m, fun _ => 0, ρ⟩ fun r => ∀ c : Dev nD,
      r.2.mem ((c : Thread nD τ).loc main_v6)
        = shapeCast S4x2048x1024 (shapeCast S8192x1024 (outArr m c) Facts₀.shapeCasts_S8192x8x128_S8192x1024)
            Facts₀.shapeCasts_S8192x1024_S4x2048x1024
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v6 (by decide : main_v6 ∈ Pipeline.restRefs sig spec0)).trans (result_eq m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c)⟩)
    (run_main m ρ hO)

/-! ## The result is the specification -/

/-- The table row of token (b, s) is the specification's row of its index word: the host's clip of the word is the
    word read signed and cut into [0, 50256]. -/
theorem rowT_spec (b : Fin 4) (s : Fin 2048) (hlt : 2048 * b.val + s.val < 8192) :
    rowT m ⟨2048 * b.val + s.val, hlt⟩ = Cert.Spec.rowW (words m (ix2 b s)) := by
  apply Fin.ext
  rw [rowT_val, tbl_apply, ClampWord.clip_toNat _ _ (by decide)]
  have e : (ix2 (⟨(2048 * b.val + s.val) / 2048, by omega⟩ : Fin 4)
      (⟨(2048 * b.val + s.val) % 2048, Nat.mod_lt _ (by decide)⟩ : Fin 2048) : S4x2048.Idx) = ix2 b s := by
    funext a
    apply Fin.ext
    have hs := s.isLt
    match a with
    | ⟨0, _⟩ => show (2048 * b.val + s.val) / 2048 = b.val; omega
    | ⟨1, _⟩ => show (2048 * b.val + s.val) % 2048 = s.val; omega
  rw [e]
  rfl

/-- THE KERNEL'S RESULT is the specification of the three argument arrays. -/
theorem result_spec (c : Dev nD) :
    shapeCast S4x2048x1024 (shapeCast S8192x1024 (outArr m c) Facts₀.shapeCasts_S8192x8x128_S8192x1024)
        Facts₀.shapeCasts_S8192x1024_S4x2048x1024
      = Cert.Spec.G (m ((c : Thread nD τ).loc main_arg0)) (m ((c : Thread nD τ).loc main_arg1))
          (m ((c : Thread nD τ).loc main_arg2)) := by
  obtain rfl : c = 0 := Subsingleton.elim _ _
  funext j
  obtain ⟨b, s, d, rfl⟩ : ∃ (b : Fin 4) (s : Fin 2048) (d : Fin 1024), j = ix3 b s d := ⟨j 0, j 1, j 2, eq_ix3 j⟩
  have hb := b.isLt
  have hs := s.isLt
  have hd := d.isLt
  have hlt : 2048 * b.val + s.val < 8192 := by omega
  have hd1 : d.val / 128 < 8 := by omega
  have hd2 : d.val % 128 < 128 := Nat.mod_lt _ (by decide)
  rw [shapeCast_apply _ Facts₀.shapeCasts_S8192x1024_S4x2048x1024 (ix3 b s d)
      (ix2 (⟨2048 * b.val + s.val, hlt⟩ : Fin 8192) d) (by
        rw [Shape.rowMajor_val_two, Shape.rowMajor_val_three]
        show (2048 * b.val + s.val) * 1024 + d.val = (b.val * 2048 + s.val) * 1024 + d.val
        omega),
    shapeCast_apply _ Facts₀.shapeCasts_S8192x8x128_S8192x1024 (ix2 (⟨2048 * b.val + s.val, hlt⟩ : Fin 8192) d)
      (ix3 (⟨2048 * b.val + s.val, hlt⟩ : Fin 8192) (⟨d.val / 128, hd1⟩ : Fin 8) (⟨d.val % 128, hd2⟩ : Fin 128)) (by
        rw [Shape.rowMajor_val_three, Shape.rowMajor_val_two]
        show ((2048 * b.val + s.val) * 8 + d.val / 128) * 128 + d.val % 128 = (2048 * b.val + s.val) * 1024 + d.val
        omega)]
  show FloatOps.mulf ((V m 0 main_v2 : FVec F S50257x8x128 .f32)
        (ix3 (rowT m ⟨2048 * b.val + s.val, hlt⟩) (⟨d.val / 128, hd1⟩ : Fin 8) (⟨d.val % 128, hd2⟩ : Fin 128)))
      ((V m 0 main_v3 : FVec F S50257x1x1 .f32) (ix3 (rowT m ⟨2048 * b.val + s.val, hlt⟩) (0 : Fin 1) (0 : Fin 1))) = _
  rw [V_v2, V_v3, rowT_spec m b s hlt, Cert.Spec.G_apply]
  rw [shapeCast_apply _ Facts₀.shapeCasts_S50257x1024_S50257x8x128
      (ix3 (Cert.Spec.rowW (words m (ix2 b s))) (⟨d.val / 128, hd1⟩ : Fin 8) (⟨d.val % 128, hd2⟩ : Fin 128))
      (ix2 (Cert.Spec.rowW (words m (ix2 b s))) d) (by
        rw [Shape.rowMajor_val_two, Shape.rowMajor_val_three]
        show (Cert.Spec.rowW (words m (ix2 b s))).val * 1024 + d.val
          = ((Cert.Spec.rowW (words m (ix2 b s))).val * 8 + d.val / 128) * 128 + d.val % 128
        omega),
    shapeCast_apply _ Facts₀.shapeCasts_S50257x1_S50257x1x1
      (ix3 (Cert.Spec.rowW (words m (ix2 b s))) (0 : Fin 1) (0 : Fin 1)) (ix2 (Cert.Spec.rowW (words m (ix2 b s))) (0 : Fin 1)) (by
        rw [Shape.rowMajor_val_two, Shape.rowMajor_val_three]
        show (Cert.Spec.rowW (words m (ix2 b s))).val * 1 + 0 = ((Cert.Spec.rowW (words m (ix2 b s))).val * 1 + 0) * 1 + 0
        omega)]

end Cert.KernelIdeal.Val

end
-- ==== Proof.RefValue.lean ====
/-
  The reference computes `Cert.Spec.G` wherever no index word is negative.

  jnp's `weight[words]` first wraps a negative index (`select (w < 0) (w + 50257) w`) and then gathers rows, the
  gather reading its start index signed and clamped into `[0, 50256]`. A word that is not negative is left alone by the
  wrap, so the row gathered is the word cut into `[0, 50256]`: the specification's row. The mask's gather reads the same
  row of the one-column mask, broadcast along the feature axis, and the two are multiplied.
-/
import proofs.«405861_j31190052504336_2_alg».proof.Proof.Gen.ReferenceIdeal.Run
import proofs.«405861_j31190052504336_2_alg».proof.Proof.Gen.ReferenceIdeal.Read
import proofs.«405861_j31190052504336_2_alg».proof.Proof.LibGatherRows3
import proofs.«405861_j31190052504336_2_alg».proof.Proof.LibClampWord
import proofs.«405861_j31190052504336_2_alg».proof.Proof.Spec
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Idealize.ShloMosaic.GatherRows3

variable {F : FTy → Type} [FloatOps F]

/-- The wrapped index array of the weights' gather is the word array itself where no word is negative. -/
theorem wrap_w (x0 : IVec S4x2048 32) (hnn : ∀ i, IntOp.cmpi .sge (x0 i) 0#32 = 1#1) (i : S4x2048.Idx) :
    val_main_v4 (F := F) x0 i = x0 i := by
  rw [val_main_v4_apply, val_main_v1_apply, val_main_v3_apply, val_main_v0_apply, val_main_v2_apply, val_main_c_apply,
    val_main_c_0_apply]
  exact ClampWord.wrap_of_nonneg _ _ (hnn i)

/-- The same for the mask's gather. -/
theorem wrap_m (x0 : IVec S4x2048 32) (hnn : ∀ i, IntOp.cmpi .sge (x0 i) 0#32 = 1#1) (i : S4x2048.Idx) :
    val_main_v11 (F := F) x0 i = x0 i := by
  rw [val_main_v11_apply, val_main_v8_apply, val_main_v10_apply, val_main_v7_apply, val_main_v9_apply, val_main_c_1_apply,
    val_main_c_2_apply]
  exact ClampWord.wrap_of_nonneg _ _ (hnn i)

/-- The index arrays' trailing unit axis: entry (b, s, 0) of the broadcast is entry (b, s). -/
theorem idx5 (b : Fin 4) (s : Fin 2048) : idx_main_v5 (ix3 b s (0 : Fin 1)) = ix2 b s :=
  funext fun a => by match a with | ⟨0, _⟩ => rfl | ⟨1, _⟩ => rfl
theorem idx12 (b : Fin 4) (s : Fin 2048) : idx_main_v12 (ix3 b s (0 : Fin 1)) = ix2 b s :=
  funext fun a => by match a with | ⟨0, _⟩ => rfl | ⟨1, _⟩ => rfl
/-- The gathered mask column broadcast along the feature axis: entry (b, s, d) reads entry (b, s, 0). -/
theorem idx14 (b : Fin 4) (s : Fin 2048) (d : Fin 1024) : idx_main_v14 (ix3 b s d) = ix3 b s (0 : Fin 1) :=
  funext fun a => by match a with | ⟨0, _⟩ => rfl | ⟨1, _⟩ => rfl | ⟨2, _⟩ => rfl

/-- THE REFERENCE'S RESULT is the specification, where no index word is negative. -/
theorem ref_eq (x0 : IVec S4x2048 32) (x1 : FVec F S50257x1024 .f32) (x2 : FVec F S50257x1 .f32)
    (hnn : ∀ i, IntOp.cmpi .sge (x0 i) 0#32 = 1#1) :
    val_main_v15 (F := F) x0 x1 x2 = Cert.Spec.G x0 x1 x2 := by
  funext j
  obtain ⟨b, s, d, rfl⟩ : ∃ (b : Fin 4) (s : Fin 2048) (d : Fin 1024), j = ix3 b s d := ⟨j 0, j 1, j 2, eq_ix3 j⟩
  rw [val_main_v15_apply, val_main_v14_apply, idx14, Cert.Spec.G_apply]
  have h6 : val_main_v6 (F := F) x0 x1 (ix3 b s d) = x1 (ix2 (Cert.Spec.rowW (x0 (ix2 b s))) d) := by
    refine (gather_rows_apply (N := 50257) (C := 1024) (B := 4) (S := 2048) (by decide)
      Facts₀.gather_S50257x1024_S4x2048x1_S4x2048x1024_2_0_n_n_0_2_11024_wf x1 (val_main_v5 (F := F) x0) b s d).trans ?_
    rw [val_main_v5_apply, idx5, wrap_w x0 hnn]
  have h13 : val_main_v13 (F := F) x0 x2 (ix3 b s (0 : Fin 1)) = x2 (ix2 (Cert.Spec.rowW (x0 (ix2 b s))) (0 : Fin 1)) := by
    refine (gather_rows_apply (N := 50257) (C := 1) (B := 4) (S := 2048) (by decide)
      Facts₀.gather_S50257x1_S4x2048x1_S4x2048x1_2_0_n_n_0_2_11_wf x2 (val_main_v12 (F := F) x0) b s (0 : Fin 1)).trans ?_
    rw [val_main_v12_apply, idx12, wrap_m x0 hnn]
  rw [h6, h13]

end Cert.ReferenceIdeal.RefValue

end
-- ==== Proof.PreWords.lean ====
/-
  The precondition read back: no index word is negative.

  The printed precondition is the conjunction of three `jnp.all`s, each a reduction by `and` of a comparison
  array from the constant 1. Its last conjunct compares every word with 0, signed `≥`; the first two (finiteness of
  the two float arrays) are not needed: the result is a single product of two array entries on both sides.
-/
import proofs.«405861_j31190052504336_2_alg».proof.Pre_finite_inputs
import proofs.«405861_j31190052504336_2_alg».proof.Proof.Gen.Pre_finite_inputs
import Idealize.ShloMosaic.Lib.Affine
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

variable {F : FTy → Type} [FloatOps F]

instance : Subsingleton S_.Idx := ⟨fun a b => funext fun d => d.elim0⟩

/-- Where the precondition holds, every index word is at least 0 as a signed number. -/
theorem words_nonneg (x0 : IVec S4x2048 32) (x1 : FVec F S50257x1024 .f32) (x2 : FVec F S50257x1 .f32)
    (h : fn (F := F) x0 x1 x2 = fun _ => 1#1) (i : S4x2048.Idx) : IntOp.cmpi .sge (x0 i) 0#32 = 1#1 := by
  have e := congrFun h ix0
  dsimp only [fn] at e
  have e3 := (IntOp.andi_eq_one.mp e).2
  exact Host.reduce_andi_all _ _ _ _ _ e3 i

end Cert.Pre_finite_inputs.Decode

end
-- ==== Proof.lean ====
/-
  An embedding lookup with a per-row scale: `out[b, s, :] = weight[row] · mask[row, 0]`, `row` the index word
  `words[b, s]` cut into `[0, 50256]`.

  The kernel clips the flattened words on the host (`minimum 50256 (maximum 0 w)`), prefetches the clipped table, and runs
  one grid point per token whose index maps fetch the table's row of the weights (as an [8, 128] tile) and of the mask; the
  body multiplies. The reference is jnp's `weight[words] * mask[words]`: it wraps a negative index NumPy-style
  (`w + 50257`) before a gather that clamps into `[0, 50256]`. On a word in `[-50256, -1]` the two read different rows, so
  the claim carries the precondition that no index word is negative (the original layer is an embedding: its indices are
  row numbers); under it both programs read row `min w 50256` and compute the one product, with no algebra on the
  extended reals and no use of finiteness.

  The frames: the kernel's is the generated one, under the side condition that every table-indexed block lies inside its
  array, which holds for EVERY input because the table is clipped (Proof/TableBits, Proof/TableIdeal); the reference's is
  its generated run. The ideal pass rewrote nothing, so `preserves` is `True`. The value: Proof/KernelValue reads the
  kernel's result off its frame run as the specification `Cert.Spec.G`; Proof/RefValue reads the reference's generated
  term at an index as the same function where no word is negative; Proof/PreWords reads that fact off the precondition.
-/
import proofs.«405861_j31190052504336_2_alg».proof.Defs
import proofs.«405861_j31190052504336_2_alg».proof.Proof.Gen.Kernel
import proofs.«405861_j31190052504336_2_alg».proof.Proof.Gen.Kernel.Frame
import proofs.«405861_j31190052504336_2_alg».proof.Proof.Gen.KernelIdeal
import proofs.«405861_j31190052504336_2_alg».proof.Proof.Gen.KernelIdeal.Frame
import proofs.«405861_j31190052504336_2_alg».proof.Proof.Gen.ReferenceIdeal
import proofs.«405861_j31190052504336_2_alg».proof.Proof.Gen.ReferenceIdeal.Run
import proofs.«405861_j31190052504336_2_alg».proof.Proof.Gen.ReferenceIdeal.Read
import proofs.«405861_j31190052504336_2_alg».proof.Proof.Gen.Pre_finite_inputs
import proofs.«405861_j31190052504336_2_alg».proof.Proof.TableBits
import proofs.«405861_j31190052504336_2_alg».proof.Proof.TableIdeal
import proofs.«405861_j31190052504336_2_alg».proof.Proof.KernelValue
import proofs.«405861_j31190052504336_2_alg».proof.Proof.RefValue
import proofs.«405861_j31190052504336_2_alg».proof.Proof.PreWords
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame, its side condition from the clipped table. -/
theorem frame_k : Cert.frame_Kernel := fun m ρ _ => Cert.Kernel.Gen.frame m ρ (Cert.Kernel.Tbl.ok m)

/-- The same for the idealized kernel. -/
theorem frame_ki : Cert.frame_KernelIdeal := fun m ρ _ => Cert.KernelIdeal.Gen.frame m ρ (Cert.KernelIdeal.Tbl.ok m)

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the specification of the (agreeing) arguments as their result: the kernel for any input, the
    reference because the precondition keeps every index word non-negative. -/
theorem algebraic : Cert.algebraic_KernelIdeal_ReferenceIdeal := by
  intro m ρ m' ρ' hpre hagree
  refine ⟨fun c => Cert.Spec.G (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Val.result_spec m c), (h c).2⟩)
      (Cert.KernelIdeal.Val.run (F := Ideal) m ρ (Cert.KernelIdeal.Tbl.ok m))
  · refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, (hagree c).1, (hagree c).2.1, (hagree c).2.2]
    exact Cert.ReferenceIdeal.RefValue.ref_eq _ _ _
      (Cert.Pre_finite_inputs.Decode.words_nonneg _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
